-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 104
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S1700000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x32, .f32⟩
  | .hbm, ⟨96, _⟩ => ⟨S1700000x1, .f32⟩
  | .hbm, ⟨97, _⟩ => ⟨S1700000x32, .f32⟩
  | .hbm, ⟨98, _⟩ => ⟨S1700000x32, .f32⟩
  | .hbm, ⟨99, _⟩ => ⟨S_, .f32⟩
  | .hbm, ⟨100, _⟩ => ⟨S100000x32, .f32⟩
  | .hbm, ⟨101, _⟩ => ⟨S1700000x1, .i32⟩
  | .hbm, ⟨102, _⟩ => ⟨S100000x32, .f32⟩
  | .hbm, ⟨103, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S32, .f32⟩
  | .local _ .vmem, ⟨18, _⟩ => ⟨S5000x32, .f32⟩
  | .local _ .vmem, ⟨19, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x1, .f32⟩
  | .hbm, ⟨102, _⟩ => ⟨S1700000x32, .f32⟩
  | .hbm, ⟨103, _⟩ => ⟨S1700000x32, .f32⟩
  | .hbm, ⟨104, _⟩ => ⟨S_, .f32⟩
  | .hbm, ⟨105, _⟩ => ⟨S100000x32, .f32⟩
  | .hbm, ⟨106, _⟩ => ⟨S1700000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Boundary.lean ====
/-
  The buffers a segment of @main does not write keep their contents across it: a host stretch writes only its own
  results, a kernel region only its windows' arrays. Read backwards from a boundary, an argument array is the launch
  memory's, and the three arrays the first host stretch computes from the edge list (the sources, the targets and the
  normalising factor of every node) are still what that stretch left when the later stretches read them.
-/
import proofs.«101406_j48722109005962_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the stretch writes the buffer: each operation writes one buffer, and it is another one. -/
macro "stretch_keeps" : tactic => `(tactic| (
  refine StableHlo.after_of_forall_not_mem _ _ (List.forall_iff_forall_mem.mp ?_)
  simp only [hostOps0, hostOps0_1, hostOps1, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The argument arrays, where a region or a stretch reads them -/

/-- The node features, as the first product finds them. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by stretch_keeps
    _ = W0 m ρ c (Proc.devRef .tc main_arg0) := by stretch_keeps
    _ = m ((c : Thread nD τ).loc main_arg0) := rfl
/-- The edge list, as the first host stretch finds it. -/
theorem W0_arg1 (c : Dev nD) : W0 m ρ c (Proc.devRef .tc main_arg1) = m ((c : Thread nD τ).loc main_arg1) := rfl
/-- The first layer's weights, as the first product finds them. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by stretch_keeps
    _ = W0 m ρ c (Proc.devRef .tc main_arg2) := by stretch_keeps
    _ = m ((c : Thread nD τ).loc main_arg2) := rfl
/-- The first layer's bias, as the first bias region finds it. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by stretch_keeps
    _ = W2 m ρ c (Proc.devRef .tc main_arg3) := W3_of_ne m ρ c main_arg3 (by decide)
    _ = W1 m ρ c (Proc.devRef .tc main_arg3) := by stretch_keeps
    _ = W0 m ρ c (Proc.devRef .tc main_arg3) := by stretch_keeps
    _ = m ((c : Thread nD τ).loc main_arg3) := rfl
/-- The second layer's weights, as the second product finds them. -/
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by stretch_keeps
    _ = W2 m ρ c (Proc.devRef .tc main_arg4) := W3_of_ne m ρ c main_arg4 (by decide)
    _ = W1 m ρ c (Proc.devRef .tc main_arg4) := by stretch_keeps
    _ = W0 m ρ c (Proc.devRef .tc main_arg4) := by stretch_keeps
    _ = m ((c : Thread nD τ).loc main_arg4) := rfl
/-- The second layer's bias, as the last region finds it. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := by stretch_keeps
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := by stretch_keeps
    _ = W2 m ρ c (Proc.devRef .tc main_arg5) := W3_of_ne m ρ c main_arg5 (by decide)
    _ = W1 m ρ c (Proc.devRef .tc main_arg5) := by stretch_keeps
    _ = W0 m ρ c (Proc.devRef .tc main_arg5) := by stretch_keeps
    _ = m ((c : Thread nD τ).loc main_arg5) := rfl

/-! ## The sources, the targets and the nodes' factors, where the two aggregation stretches read them -/

theorem W3_v3 (c : Dev nD) : W3 m ρ c (Proc.devRef .tc main_v3) = W1 m ρ c (Proc.devRef .tc main_v3) :=
  calc W3 m ρ c (Proc.devRef .tc main_v3)
    _ = W2 m ρ c (Proc.devRef .tc main_v3) := W3_of_ne m ρ c main_v3 (by decide)
    _ = W1 m ρ c (Proc.devRef .tc main_v3) := by stretch_keeps
theorem W3_v6 (c : Dev nD) : W3 m ρ c (Proc.devRef .tc main_v6) = W1 m ρ c (Proc.devRef .tc main_v6) :=
  calc W3 m ρ c (Proc.devRef .tc main_v6)
    _ = W2 m ρ c (Proc.devRef .tc main_v6) := W3_of_ne m ρ c main_v6 (by decide)
    _ = W1 m ρ c (Proc.devRef .tc main_v6) := by stretch_keeps
theorem W3_v16 (c : Dev nD) : W3 m ρ c (Proc.devRef .tc main_v16) = W2 m ρ c (Proc.devRef .tc main_v16) :=
  W3_of_ne m ρ c main_v16 (by decide)

theorem W6_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := W5_of_ne m ρ c main_v3 (by decide)
    _ = W3 m ρ c (Proc.devRef .tc main_v3) := by stretch_keeps
    _ = W1 m ρ c (Proc.devRef .tc main_v3) := W3_v3 m ρ c
theorem W6_v6 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := W5_of_ne m ρ c main_v6 (by decide)
    _ = W3 m ρ c (Proc.devRef .tc main_v6) := by stretch_keeps
    _ = W1 m ρ c (Proc.devRef .tc main_v6) := W3_v6 m ρ c
theorem W6_v16 (c : Dev nD) : W6 m ρ c (Proc.devRef .tc main_v16) = W2 m ρ c (Proc.devRef .tc main_v16) :=
  calc W6 m ρ c (Proc.devRef .tc main_v16)
    _ = W5 m ρ c (Proc.devRef .tc main_v16) := W6_of_ne m ρ c main_v16 (by decide)
    _ = W4 m ρ c (Proc.devRef .tc main_v16) := W5_of_ne m ρ c main_v16 (by decide)
    _ = W3 m ρ c (Proc.devRef .tc main_v16) := by stretch_keeps
    _ = W2 m ρ c (Proc.devRef .tc main_v16) := W3_v16 m ρ c

end Cert.KernelIdeal.Boundary

end
-- ==== Proof.HostChain.lean ====
/-
  The host stretches of the kernel's program are the reference's own operations. From the edge list the first stretch
  builds the sources (the list's first row followed by every node once, for the self-loops), the targets (its second
  row followed by every node once) and, per node, the factor deg^(-1/2) (the degree counted over the targets; zero where
  no edge arrives). Each of the two aggregation stretches then takes a node table `h`, gathers row `source e` of it for
  every edge `e`, scales that row by factor(source e) · factor(target e), and adds it into row `target e` of a zero
  table. Read at the buffer it ends in, every stretch is the reference's stage of the same name, applied to whatever
  table the stretch found.
-/
import proofs.«101406_j48722109005962_1_alg».proof.Proof.Gen.KernelIdeal.Launch
import proofs.«101406_j48722109005962_1_alg».proof.Proof.RefRead
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (W : Valuation τ sig (Elt F))

/-- The sources: the edge list's first row, then every node once. -/
theorem sources_after :
    after hostOps0 W (Proc.devRef .tc main_v3) = val_main_v3 (F := F) (W (Proc.devRef .tc main_arg1)) := by
  dsimp only [hostOps0]
  after_results
  rfl

/-- The targets: the edge list's second row, then every node once. -/
theorem targets_after :
    after hostOps0 W (Proc.devRef .tc main_v6) = val_main_v6 (F := F) (W (Proc.devRef .tc main_arg1)) := by
  dsimp only [hostOps0]
  after_results
  rfl

/-- The nodes' factors: deg^(-1/2) where an edge arrives, zero elsewhere. -/
theorem factors_after :
    after hostOps0_1 (after hostOps0 W) (Proc.devRef .tc main_v16)
      = val_main_v16 (F := F) (W (Proc.devRef .tc main_arg1)) := by
  dsimp only [hostOps0, hostOps0_1]
  after_results_simp
  results_inside
  rfl

/-- The first aggregation, from the table the first product left. -/
theorem aggregate1_after (x0 : (⟨S100000x128, .f32⟩ : BufTy).Contents (Elt F)) (x1 : (⟨S2x1600000, .i32⟩ : BufTy).Contents (Elt F))
    (x2 : (⟨S128x64, .f32⟩ : BufTy).Contents (Elt F))
    (h17 : W (Proc.devRef .tc main_v17) = val_main_v17 (F := F) x0 x2)
    (h16 : W (Proc.devRef .tc main_v16) = val_main_v16 (F := F) x1)
    (h3 : W (Proc.devRef .tc main_v3) = val_main_v3 (F := F) x1)
    (h6 : W (Proc.devRef .tc main_v6) = val_main_v6 (F := F) x1) :
    after hostOps1 W (Proc.devRef .tc main_v45) = val_main_v45 (F := F) x0 x1 x2 := by
  dsimp only [hostOps1]
  after_results_simp
  rw [h17, h16, h3, h6]
  rfl

/-- The second aggregation, from the table the second product left. -/
theorem aggregate2_after (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (x4 : (⟨S64x32, .f32⟩ : BufTy).Contents (Elt F))
    (h47 : W (Proc.devRef .tc main_v47) = val_main_v50 (F := F) x0 x1 x2 x3 x4)
    (h16 : W (Proc.devRef .tc main_v16) = val_main_v16 (F := F) x1)
    (h3 : W (Proc.devRef .tc main_v3) = val_main_v3 (F := F) x1)
    (h6 : W (Proc.devRef .tc main_v6) = val_main_v6 (F := F) x1) :
    after hostOps3 W (Proc.devRef .tc main_v75) = val_main_v78 (F := F) x0 x1 x2 x3 x4 := by
  dsimp only [hostOps3]
  after_results_simp
  rw [h47, h16, h3, h6]
  rfl

end Cert.KernelIdeal.HostChain

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Region0.lean ====
import proofs.«101406_j48722109005962_1_alg».proof.Proof.Gen.KernelIdeal.Frame
import proofs.«101406_j48722109005962_1_alg».proof.Proof.LibRowDims
import Idealize.ShloMosaic.Lib.Pipeline.Value
import Idealize.ShloMosaic.Lib.ValueIdx
import Idealize.ShloMosaic.PureOps.Ideal.Laws

/-!
  The matrix product of region 0: the grid's 20 points each multiply one block of 5000 rows of the left array by
  the whole right array into a zero accumulator and write the block of 5000 rows of the result. The blocks tile the
  100000 rows, so the result array ends as the product of the two arrays the region found, entry by entry.
-/

noncomputable section

open scoped BigOperators

namespace Cert.KernelIdeal.Region0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Entry (p, q) of the product: row p of x against column q of w. -/
def prod0 (x : S100000x128.Idx → EReal) (w : S128x64.Idx → EReal) : S100000x64.Idx → EReal :=
  fun i => ∑ k : Fin 128, x (ix2 (n0 := 100000) (n1 := 128) ⟨(i 0).val, idx2_lt0 i⟩ k) * w (ix2 (n0 := 128) (n1 := 64) k ⟨(i 1).val, idx2_lt1 i⟩)

/-- The two zero offsets of a whole-buffer access, as a constant function. -/
theorem zeros2 : (![0, 0] : Fin 2 → Nat) = fun _ => 0 := funext fun a => by fin_cases a <;> rfl

/-- The body's dimension numbers are those of a plain product `[5000, 128] × [128, 64]`. -/
theorem dims_plain : dot_S5000x128_S128x64_S5000x64_1_0_0_1_n_n = DotDims.plain 5000 128 64 := rfl

/-- The body's payload at the entry (p, q) of its block: the 128 products of row p of the left block with column q of
    the right block, summed (the narrowing of the operands is the identity on extended reals, the accumulator is zero). -/
theorem pay_apply (x : Vec Ideal S5000x128 .f32) (w : Vec Ideal S128x64 .f32) (p : Fin 5000) (q : Fin 64) :
    k0_pay1 x w (ix2 p q) = ∑ k : Fin 128, x (ix2 p k) * w (ix2 k q) := by
  unfold k0_pay1
  rw [dims_plain]
  exact RowDims.matmul_plain_zero_apply none _ _ p q

/-- A block of 5000 rows starting at row `5000 n` of the left array, against the whole right array: the payload at the
    block's entry `j` is the product's entry `i` when `i` is `j` moved down by `5000 n` rows. -/
theorem pay_block (x : Vec Ideal S5000x128 .f32) (w : Vec Ideal S128x64 .f32)
    (X : S100000x128.Idx → EReal) (W : S128x64.Idx → EReal) (n : Nat)
    (hx : ∀ (y : S5000x128.Idx) (k : S100000x128.Idx), (k 0).val = 5000 * n + (y 0).val → (k 1).val = (y 1).val → x y = X k)
    (hw : ∀ y : S128x64.Idx, w y = W y)
    (j : S5000x64.Idx) (i : S100000x64.Idx) (hi0 : (i 0).val = 5000 * n + (j 0).val) (hi1 : (i 1).val = (j 1).val) :
    k0_pay1 x w j = prod0 X W i := by
  obtain ⟨p, q, rfl⟩ : ∃ (p : Fin 5000) (q : Fin 64), j = ix2 p q := ⟨j 0, j 1, eq_ix2 j⟩
  rw [pay_apply]
  unfold prod0
  refine Finset.sum_congr rfl fun k _ => ?_
  have h1 : x (ix2 p k) = X (ix2 ⟨(i 0).val, idx2_lt0 i⟩ k) := hx _ _ hi0 rfl
  have h2 : (ix2 k q : S128x64.Idx) = ix2 k ⟨(i 1).val, idx2_lt1 i⟩ := by
    congr 1; exact Fin.ext hi1.symm
  rw [h1, hw, h2]

/-- The printed index maps, decided over the grid: at point `t` the left window and the result window are at block row
    `t`, block column 0, and the right window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- The left window's block at point `t` is rows `5000 t … 5000 t + 4999` of the left array. -/
theorem lhs_block_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The right window's block at every point is the whole right array. -/
theorem rhs_block_apply (c : Dev nD) (t : Fin cfg0.N) (y : S128x64.Idx) :
    (iblk0 V c 1 t : Vec Ideal S128x64 .f32) y = (V c main_arg2 : S128x64.Idx → EReal) y := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 64 + 1 * (y 1).val = (y 1).val; rw [e3]; omega

/-- What point `t` writes back is block `t` of the product of the two arrays as the region finds them. -/
theorem flushed_eq (c : Dev nD) (t : Fin cfg0.N) :
    (dat0 (F := Ideal) V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x64) zeros2]
  obtain ⟨-, -, -, -, e4, e5⟩ := idx_facts t
  funext j
  show k0_pay1 (iblk0 V c 0 t) (iblk0 V c 1 t) j = prod0 (V c main_arg0) (V c main_arg2) (((cfg0.win 2).blk t).view.emb j)
  refine pay_block _ _ _ _ t.val (fun y k hk0 hk1 => lhs_block_apply V c t y k hk0 hk1) (fun y => rhs_block_apply V c t y) j _ ?_ ?_
  · show win0_2.index t (0 : Fin 2) * 5000 + 1 * (j 0).val = 5000 * t.val + (j 0).val
    rw [e4]; omega
  · show win0_2.index t (1 : Fin 2) * 64 + 1 * (j 1).val = (j 1).val
    rw [e5]; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v17).slice (win0_2.rect t)).set ↔ _
  rw [View.set_slice_whole, Rect.mem_set_unit]
  exact Iff.rfl

/-- Every entry of the result array is in some point's block: row `r` is in the block of point `r / 5000`. -/
theorem cover (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the product of the two arrays the region found. -/
theorem final0 (c : Dev nD) : (dat0 (F := Ideal) V c).arrAt 2 cfg0.N = prod0 (V c main_arg0) (V c main_arg2) :=
  (dat0 V c).arrAt_eq_of_cover 2 (prod0 (V c main_arg0) (V c main_arg2)) (fun t _ => flushed_eq V c t) cover

end Cert.KernelIdeal.Region0

end
-- ==== Proof.Region1.lean ====
import proofs.«101406_j48722109005962_1_alg».proof.Proof.Gen.KernelIdeal.Frame
import Idealize.ShloMosaic.Lib.Pipeline.Value
import Idealize.ShloMosaic.Lib.ValueIdx
import Idealize.ShloMosaic.Lib.ValueLayout

/-!
  The first bias region: the grid's 20 points each take one block of 5000 rows of the aggregated table and the whole
  bias vector, add the bias to every row and keep the larger of the sum and zero. The blocks tile the 100000 rows, so
  the result array ends, entry (p, q), as max (agg (p, q) + b q, 0) of the two arrays the region found.
-/

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Entry (p, q): the larger of a (p, q) + b q and zero. -/
def biasRelu1 (a : S100000x64.Idx → Elt Ideal .f32) (b : S64.Idx → Elt Ideal .f32) : S100000x64.Idx → Elt Ideal .f32 :=
  fun i => FloatOps.maximumf (F := Ideal) (φ := .f32)
    (FloatOps.addf (F := Ideal) (φ := .f32) (a i) (b (ix1 (n := 64) ⟨(i 1).val, idx2_lt1 i⟩)))
    (FloatOps.ofBits (F := Ideal) .f32 0x00000000#32)

theorem zero_offsets2 : (![0, 0] : Fin 2 → Nat) = fun _ => 0 := funext fun a => by fin_cases a <;> rfl
theorem zero_offsets1 : (![0] : Fin 1 → Nat) = fun _ => 0 := funext fun a => by fin_cases a; rfl

/-- The body's value at (p, q) of a block: the row block's entry plus the bias vector's q-th entry, or zero if that is larger. -/
theorem reluRowsPlusBias_apply (x : Vec Ideal S5000x64 .f32) (y : Vec Ideal S64 .f32) (p : Fin 5000) (q : Fin 64) :
    k1_pay1 (F := Ideal) x y (ix2 p q)
      = FloatOps.maximumf (F := Ideal) (φ := .f32)
          (FloatOps.addf (F := Ideal) (φ := .f32) (x (ix2 p q)) (y (ix1 q)))
          (FloatOps.ofBits (F := Ideal) .f32 0x00000000#32) := by
  unfold k1_pay1
  show FloatOps.maximumf (F := Ideal) (φ := .f32)
      (FloatOps.addf (F := Ideal) (φ := .f32) (shapeCast S5000x64 x _ (ix2 p q)) (broadcastTo S5000x64 _ _ (ix2 p q)))
      (FloatOps.ofBits (F := Ideal) .f32 0x00000000#32) = _
  rw [shapeCast_self, broadcastTo_1b_ab_apply, shapeCast_self, shapeCast_a_1a_apply]

/-- The body's value at any index of a block. -/
theorem reluRowsPlusBias_at (x : Vec Ideal S5000x64 .f32) (y : Vec Ideal S64 .f32) (j : S5000x64.Idx) :
    k1_pay1 (F := Ideal) x y j
      = FloatOps.maximumf (F := Ideal) (φ := .f32)
          (FloatOps.addf (F := Ideal) (φ := .f32) (x j) (y (ix1 (n := 64) ⟨(j 1).val, idx2_lt1 j⟩)))
          (FloatOps.ofBits (F := Ideal) .f32 0x00000000#32) := by
  obtain ⟨p, q, rfl⟩ : ∃ (p : Fin 5000) (q : Fin 64), j = ix2 p q := ⟨j 0, j 1, eq_ix2 j⟩
  exact reluRowsPlusBias_apply x y p q

/-- The index maps over the grid: point t takes row block t of the rows' array and of the result, and the whole bias vector. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The rows' block at point t, at (p, q), is the array's entry (5000 t + p, q). -/
theorem rows_read (c : Dev nD) (t : Fin cfg1.N) (j : S5000x64.Idx) (i : S100000x64.Idx)
    (h0 : (i 0).val = t.val * 5000 + (j 0).val) (h1 : (i 1).val = (j 1).val) :
    (iblk1 V c 0 t : Vec Ideal S5000x64 .f32) j = (V c main_v45 : S100000x64.Idx → Elt Ideal .f32) i := by
  obtain ⟨e0, e1, -, -, -⟩ := idx_facts t
  unfold iblk1
  rw [View.read_apply]
  show V c main_v45 _ = V c main_v45 _
  congr 1
  funext a
  apply Fin.ext
  match a with
  | ⟨0, _⟩ => show win1_0.index t (0 : Fin 2) * 5000 + 1 * (j 0).val = (i 0).val; rw [e0, h0]; omega
  | ⟨1, _⟩ => show win1_0.index t (1 : Fin 2) * 64 + 1 * (j 1).val = (i 1).val; rw [e1, h1]; omega

/-- The bias block at any point is the whole bias vector. -/
theorem bias_read (c : Dev nD) (t : Fin cfg1.N) (q : Fin 64) :
    (iblk1 V c 1 t : Vec Ideal S64 .f32) (ix1 q) = (V c main_arg3 : S64.Idx → Elt Ideal .f32) (ix1 q) := by
  obtain ⟨-, -, e2, -, -⟩ := idx_facts t
  unfold iblk1
  rw [View.read_apply]
  show V c main_arg3 _ = V c main_arg3 _
  congr 1
  funext a
  apply Fin.ext
  match a with
  | ⟨0, _⟩ => show win1_1.index t (0 : Fin 1) * 64 + 1 * q.val = q.val; rw [e2]; omega

/-- What point t writes back is block t of the whole-array function. -/
theorem flushed_eq (c : Dev nD) (t : Fin cfg1.N) :
    (dat1 (F := Ideal) V c).flushed 2 t = ((cfg1.win 2).blk t).view.read (Elt Ideal) (biasRelu1 (V c main_v45) (V c main_arg3)) := by
  show (cfg1.win 2).cut (grid1.coords t) ((dat1 V c).after 2 t) = _
  rw [after1_2]
  unfold out1_2
  rw [View.canon_unit_zero zero_offsets2]
  simp only [View.ld_unit_zero (S := S5000x64) zero_offsets2, View.ld_unit_zero (S := S64) zero_offsets1]
  obtain ⟨-, -, -, e3, e4⟩ := idx_facts t
  funext j
  rw [View.read_apply]
  refine (reluRowsPlusBias_at _ _ _).trans ?_
  unfold biasRelu1
  refine congrArg₂ (FloatOps.maximumf (F := Ideal) (φ := .f32)) (congrArg₂ (FloatOps.addf (F := Ideal) (φ := .f32)) ?_ ?_) rfl
  · refine rows_read V c t _ _ ?_ ?_
    · show win1_2.index t (0 : Fin 2) * 5000 + 1 * (j 0).val = t.val * 5000 + (j 0).val; rw [e3]; omega
    · show win1_2.index t (1 : Fin 2) * 64 + 1 * (j 1).val = (j 1).val; rw [e4]; omega
  · refine (bias_read V c t _).trans (congrArg _ (congrArg (ix1 (n := 64)) (Fin.ext ?_)))
    show (j 1).val = win1_2.index t (1 : Fin 2) * 64 + 1 * (j 1).val; rw [e4]; omega

/-- An index of the result array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- Row r lies in the block of point r / 5000: the twenty row blocks tile the array. -/
theorem cover (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 20 := by decide
  let t : Fin cfg1.N := ⟨(i 0).val / 5000, by rw [hN]; omega⟩
  obtain ⟨-, -, -, e3, e4⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e3, ht]; omega
  | ⟨1, _⟩ => show win1_2.index t (1 : Fin 2) * 64 ≤ (i 1).val ∧ (i 1).val < win1_2.index t (1 : Fin 2) * 64 + 64; rw [e4]; omega

/-- The result array after the region: the rows' array plus the bias vector along every row, negative entries replaced by zero. -/
theorem final1 (c : Dev nD) : (dat1 (F := Ideal) V c).arrAt 2 cfg1.N = biasRelu1 (V c main_v45) (V c main_arg3) :=
  (dat1 (F := Ideal) V c).arrAt_eq_of_cover 2 (biasRelu1 (V c main_v45) (V c main_arg3)) (fun t _ => flushed_eq V c t) cover

end Cert.KernelIdeal.Region1

end
-- ==== Proof.Region2.lean ====
import proofs.«101406_j48722109005962_1_alg».proof.Proof.Gen.KernelIdeal.Frame
import proofs.«101406_j48722109005962_1_alg».proof.Proof.LibRowDims
import Idealize.ShloMosaic.Lib.Pipeline.Value
import Idealize.ShloMosaic.Lib.ValueIdx
import Idealize.ShloMosaic.PureOps.Ideal.Laws

/-!
  The matrix product of region 2: the grid's 20 points each multiply one block of 5000 rows of the left array by
  the whole right array into a zero accumulator and write the block of 5000 rows of the result. The blocks tile the
  100000 rows, so the result array ends as the product of the two arrays the region found, entry by entry.
-/

noncomputable section

open scoped BigOperators

namespace Cert.KernelIdeal.Region2

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Entry (p, q) of the product: row p of x against column q of w. -/
def prod2 (x : S100000x64.Idx → EReal) (w : S64x32.Idx → EReal) : S100000x32.Idx → EReal :=
  fun i => ∑ k : Fin 64, x (ix2 (n0 := 100000) (n1 := 64) ⟨(i 0).val, idx2_lt0 i⟩ k) * w (ix2 (n0 := 64) (n1 := 32) k ⟨(i 1).val, idx2_lt1 i⟩)

/-- The two zero offsets of a whole-buffer access, as a constant function. -/
theorem zeros2 : (![0, 0] : Fin 2 → Nat) = fun _ => 0 := funext fun a => by fin_cases a <;> rfl

/-- The body's dimension numbers are those of a plain product `[5000, 64] × [64, 32]`. -/
theorem dims_plain : dot_S5000x64_S64x32_S5000x32_1_0_0_1_n_n = DotDims.plain 5000 64 32 := rfl

/-- The body's payload at the entry (p, q) of its block: the 64 products of row p of the left block with column q of
    the right block, summed (the narrowing of the operands is the identity on extended reals, the accumulator is zero). -/
theorem pay_apply (x : Vec Ideal S5000x64 .f32) (w : Vec Ideal S64x32 .f32) (p : Fin 5000) (q : Fin 32) :
    k2_pay1 x w (ix2 p q) = ∑ k : Fin 64, x (ix2 p k) * w (ix2 k q) := by
  unfold k2_pay1
  rw [dims_plain]
  simp only [shapeCast_self]
  exact RowDims.matmul_plain_zero_apply none _ _ p q

/-- A block of 5000 rows starting at row `5000 n` of the left array, against the whole right array: the payload at the
    block's entry `j` is the product's entry `i` when `i` is `j` moved down by `5000 n` rows. -/
theorem pay_block (x : Vec Ideal S5000x64 .f32) (w : Vec Ideal S64x32 .f32)
    (X : S100000x64.Idx → EReal) (W : S64x32.Idx → EReal) (n : Nat)
    (hx : ∀ (y : S5000x64.Idx) (k : S100000x64.Idx), (k 0).val = 5000 * n + (y 0).val → (k 1).val = (y 1).val → x y = X k)
    (hw : ∀ y : S64x32.Idx, w y = W y)
    (j : S5000x32.Idx) (i : S100000x32.Idx) (hi0 : (i 0).val = 5000 * n + (j 0).val) (hi1 : (i 1).val = (j 1).val) :
    k2_pay1 x w j = prod2 X W i := by
  obtain ⟨p, q, rfl⟩ : ∃ (p : Fin 5000) (q : Fin 32), j = ix2 p q := ⟨j 0, j 1, eq_ix2 j⟩
  rw [pay_apply]
  unfold prod2
  refine Finset.sum_congr rfl fun k _ => ?_
  have h1 : x (ix2 p k) = X (ix2 ⟨(i 0).val, idx2_lt0 i⟩ k) := hx _ _ hi0 rfl
  have h2 : (ix2 k q : S64x32.Idx) = ix2 k ⟨(i 1).val, idx2_lt1 i⟩ := by
    congr 1; exact Fin.ext hi1.symm
  rw [h1, hw, h2]

/-- The printed index maps, decided over the grid: at point `t` the left window and the result window are at block row
    `t`, block column 0, and the right window stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row of the result is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- The left window's block at point `t` is rows `5000 t … 5000 t + 4999` of the left array. -/
theorem lhs_block_apply (c : Dev nD) (t : Fin cfg2.N) (y : S5000x64.Idx) (k : S100000x64.Idx)
    (hk0 : (k 0).val = 5000 * t.val + (y 0).val) (hk1 : (k 1).val = (y 1).val) :
    (iblk2 V c 0 t : Vec Ideal S5000x64 .f32) y = (V c main_v46 : S100000x64.Idx → EReal) k := by
  obtain ⟨e0, e1, -⟩ := idx_facts t
  unfold iblk2
  rw [View.read_apply]
  show V c main_v46 _ = V c main_v46 _
  congr 1
  funext a
  apply Fin.ext
  match a with
  | ⟨0, _⟩ => show win2_0.index t (0 : Fin 2) * 5000 + 1 * (y 0).val = (k 0).val; rw [e0, hk0]; omega
  | ⟨1, _⟩ => show win2_0.index t (1 : Fin 2) * 64 + 1 * (y 1).val = (k 1).val; rw [e1, hk1]; omega

/-- The right window's block at every point is the whole right array. -/
theorem rhs_block_apply (c : Dev nD) (t : Fin cfg2.N) (y : S64x32.Idx) :
    (iblk2 V c 1 t : Vec Ideal S64x32 .f32) y = (V c main_arg4 : S64x32.Idx → EReal) y := by
  obtain ⟨-, -, e2, e3, -⟩ := idx_facts t
  unfold iblk2
  rw [View.read_apply]
  show V c main_arg4 _ = V c main_arg4 _
  congr 1
  funext a
  apply Fin.ext
  match a with
  | ⟨0, _⟩ => show win2_1.index t (0 : Fin 2) * 64 + 1 * (y 0).val = (y 0).val; rw [e2]; omega
  | ⟨1, _⟩ => show win2_1.index t (1 : Fin 2) * 32 + 1 * (y 1).val = (y 1).val; rw [e3]; omega

/-- What point `t` writes back is block `t` of the product of the two arrays as the region finds them. -/
theorem flushed_eq (c : Dev nD) (t : Fin cfg2.N) :
    (dat2 (F := Ideal) V c).flushed 2 t = ((cfg2.win 2).blk t).view.read (Elt Ideal) (prod2 (V c main_v46) (V c main_arg4)) := by
  show (cfg2.win 2).cut (grid2.coords t) ((dat2 V c).after 2 t) = _
  rw [after2_2]
  unfold out2_2
  rw [View.canon_unit_zero zeros2]
  simp only [View.ld_unit_zero (S := S5000x64) zeros2, View.ld_unit_zero (S := S64x32) zeros2]
  obtain ⟨-, -, -, -, e4, e5⟩ := idx_facts t
  funext j
  show k2_pay1 (iblk2 V c 0 t) (iblk2 V c 1 t) j = prod2 (V c main_v46) (V c main_arg4) (((cfg2.win 2).blk t).view.emb j)
  refine pay_block _ _ _ _ t.val (fun y k hk0 hk1 => lhs_block_apply V c t y k hk0 hk1) (fun y => rhs_block_apply V c t y) j _ ?_ ?_
  · show win2_2.index t (0 : Fin 2) * 5000 + 1 * (j 0).val = 5000 * t.val + (j 0).val
    rw [e4]; omega
  · show win2_2.index t (1 : Fin 2) * 32 + 1 * (j 1).val = (j 1).val
    rw [e5]; omega

/-- An index of the result array is in point `t`'s block iff each coordinate is in the block's range on its axis. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v47).slice (win2_2.rect t)).set ↔ _
  rw [View.set_slice_whole, Rect.mem_set_unit]
  exact Iff.rfl

/-- Every entry of the result array is in some point's block: row `r` is in the block of point `r / 5000`. -/
theorem cover (i : S100000x32.Idx) :
    ∃ t : Fin cfg2.N, (cfg2.win 2).flush t = true ∧ i ∈ ((cfg2.win 2).blk t).view.set := by
  have hi0 : (i 0).val < 100000 := idx2_lt0 i
  have hi1 : (i 1).val < 32 := idx2_lt1 i
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The result array after the region: the product of the two arrays the region found. -/
theorem final2 (c : Dev nD) : (dat2 (F := Ideal) V c).arrAt 2 cfg2.N = prod2 (V c main_v46) (V c main_arg4) :=
  (dat2 V c).arrAt_eq_of_cover 2 (prod2 (V c main_v46) (V c main_arg4)) (fun t _ => flushed_eq V c t) cover

end Cert.KernelIdeal.Region2

end
-- ==== Proof.Region3.lean ====
import proofs.«101406_j48722109005962_1_alg».proof.Proof.Gen.KernelIdeal.Frame
import Idealize.ShloMosaic.Lib.Pipeline.Value
import Idealize.ShloMosaic.Lib.ValueIdx
import Idealize.ShloMosaic.Lib.ValueLayout

/-!
  The last region: the grid's 20 points each take one block of 5000 rows of the aggregated table and the whole bias
  vector and add the bias to every row. The blocks tile the 100000 rows, so the result array ends, entry (p, q), as
  agg (p, q) + b q of the two arrays the region found.
-/

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Entry (p, q): a (p, q) + b q. -/
def bias3 (a : S100000x32.Idx → Elt Ideal .f32) (b : S32.Idx → Elt Ideal .f32) : S100000x32.Idx → Elt Ideal .f32 :=
  fun i => FloatOps.addf (F := Ideal) (φ := .f32) (a i) (b (ix1 (n := 32) ⟨(i 1).val, idx2_lt1 i⟩))

theorem zero_offsets2 : (![0, 0] : Fin 2 → Nat) = fun _ => 0 := funext fun a => by fin_cases a <;> rfl
theorem zero_offsets1 : (![0] : Fin 1 → Nat) = fun _ => 0 := funext fun a => by fin_cases a; rfl

/-- The body's value at (p, q) of a block: the row block's entry plus the bias vector's q-th entry. -/
theorem rowsPlusBias_apply (x : Vec Ideal S5000x32 .f32) (y : Vec Ideal S32 .f32) (p : Fin 5000) (q : Fin 32) :
    k3_pay1 (F := Ideal) x y (ix2 p q) = FloatOps.addf (F := Ideal) (φ := .f32) (x (ix2 p q)) (y (ix1 q)) := by
  unfold k3_pay1
  show FloatOps.addf (F := Ideal) (φ := .f32) (shapeCast S5000x32 x _ (ix2 p q)) (broadcastTo S5000x32 _ _ (ix2 p q)) = _
  rw [shapeCast_self, broadcastTo_1b_ab_apply, shapeCast_self, shapeCast_a_1a_apply]

/-- The body's value at any index of a block. -/
theorem rowsPlusBias_at (x : Vec Ideal S5000x32 .f32) (y : Vec Ideal S32 .f32) (j : S5000x32.Idx) :
    k3_pay1 (F := Ideal) x y j = FloatOps.addf (F := Ideal) (φ := .f32) (x j) (y (ix1 (n := 32) ⟨(j 1).val, idx2_lt1 j⟩)) := by
  obtain ⟨p, q, rfl⟩ : ∃ (p : Fin 5000) (q : Fin 32), j = ix2 p q := ⟨j 0, j 1, eq_ix2 j⟩
  exact rowsPlusBias_apply x y p q

/-- The index maps over the grid: point t takes row block t of the rows' array and of the result, and the whole bias vector. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The rows' block at point t, at (p, q), is the array's entry (5000 t + p, q). -/
theorem rows_read (c : Dev nD) (t : Fin cfg3.N) (j : S5000x32.Idx) (i : S100000x32.Idx)
    (h0 : (i 0).val = t.val * 5000 + (j 0).val) (h1 : (i 1).val = (j 1).val) :
    (iblk3 V c 0 t : Vec Ideal S5000x32 .f32) j = (V c main_v75 : S100000x32.Idx → Elt Ideal .f32) i := by
  obtain ⟨e0, e1, -, -, -⟩ := idx_facts t
  unfold iblk3
  rw [View.read_apply]
  show V c main_v75 _ = V c main_v75 _
  congr 1
  funext a
  apply Fin.ext
  match a with
  | ⟨0, _⟩ => show win3_0.index t (0 : Fin 2) * 5000 + 1 * (j 0).val = (i 0).val; rw [e0, h0]; omega
  | ⟨1, _⟩ => show win3_0.index t (1 : Fin 2) * 32 + 1 * (j 1).val = (i 1).val; rw [e1, h1]; omega

/-- The bias block at any point is the whole bias vector. -/
theorem bias_read (c : Dev nD) (t : Fin cfg3.N) (q : Fin 32) :
    (iblk3 V c 1 t : Vec Ideal S32 .f32) (ix1 q) = (V c main_arg5 : S32.Idx → Elt Ideal .f32) (ix1 q) := by
  obtain ⟨-, -, e2, -, -⟩ := idx_facts t
  unfold iblk3
  rw [View.read_apply]
  show V c main_arg5 _ = V c main_arg5 _
  congr 1
  funext a
  apply Fin.ext
  match a with
  | ⟨0, _⟩ => show win3_1.index t (0 : Fin 1) * 32 + 1 * q.val = q.val; rw [e2]; omega

/-- What point t writes back is block t of the whole-array function. -/
theorem flushed_eq (c : Dev nD) (t : Fin cfg3.N) :
    (dat3 (F := Ideal) V c).flushed 2 t = ((cfg3.win 2).blk t).view.read (Elt Ideal) (bias3 (V c main_v75) (V c main_arg5)) := by
  show (cfg3.win 2).cut (grid3.coords t) ((dat3 V c).after 2 t) = _
  rw [after3_2]
  unfold out3_2
  rw [View.canon_unit_zero zero_offsets2]
  simp only [View.ld_unit_zero (S := S5000x32) zero_offsets2, View.ld_unit_zero (S := S32) zero_offsets1]
  obtain ⟨-, -, -, e3, e4⟩ := idx_facts t
  funext j
  rw [View.read_apply]
  refine (rowsPlusBias_at _ _ _).trans ?_
  unfold bias3
  refine congrArg₂ (FloatOps.addf (F := Ideal) (φ := .f32)) ?_ ?_
  · refine rows_read V c t _ _ ?_ ?_
    · show win3_2.index t (0 : Fin 2) * 5000 + 1 * (j 0).val = t.val * 5000 + (j 0).val; rw [e3]; omega
    · show win3_2.index t (1 : Fin 2) * 32 + 1 * (j 1).val = (j 1).val; rw [e4]; omega
  · refine (bias_read V c t _).trans (congrArg _ (congrArg (ix1 (n := 32)) (Fin.ext ?_)))
    show (j 1).val = win3_2.index t (1 : Fin 2) * 32 + 1 * (j 1).val; rw [e4]; omega

/-- An index of the result array is in point t's block iff each coordinate is in the block's range on its axis. -/
theorem mem_blk (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v76).slice (win3_2.rect t)).set ↔ _
  rw [View.set_slice_whole, Rect.mem_set_unit]
  exact Iff.rfl

/-- Row r lies in the block of point r / 5000: the twenty row blocks tile the array. -/
theorem cover (i : S100000x32.Idx) : ∃ t : Fin cfg3.N, (cfg3.win 2).flush t = true ∧ i ∈ ((cfg3.win 2).blk t).view.set := by
  have hi0 : (i 0).val < 100000 := idx2_lt0 i
  have hi1 : (i 1).val < 32 := idx2_lt1 i
  have hN : cfg3.N = 20 := by decide
  let t : Fin cfg3.N := ⟨(i 0).val / 5000, by rw [hN]; omega⟩
  obtain ⟨-, -, -, e3, e4⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e3, ht]; omega
  | ⟨1, _⟩ => show win3_2.index t (1 : Fin 2) * 32 ≤ (i 1).val ∧ (i 1).val < win3_2.index t (1 : Fin 2) * 32 + 32; rw [e4]; omega

/-- The result array after the region: the rows' array plus the bias vector along every row. -/
theorem final3 (c : Dev nD) : (dat3 (F := Ideal) V c).arrAt 2 cfg3.N = bias3 (V c main_v75) (V c main_arg5) :=
  (dat3 (F := Ideal) V c).arrAt_eq_of_cover 2 (bias3 (V c main_v75) (V c main_arg5)) (fun t _ => flushed_eq V c t) cover

end Cert.KernelIdeal.Region3

end
-- ==== Proof.RefBridge.lean ====
/-
  Each kernel region's whole-array function is the reference's stage of the same step, at the extended reals:
  a block-wise product into a zero accumulator is the host's product (entry (p, q) of either is the sum over k of
  x (p, k) · w (k, q)), and the bias regions are the host's broadcast, sum and maximum read entry by entry.
-/
import proofs.«101406_j48722109005962_1_alg».proof.Proof.Region0
import proofs.«101406_j48722109005962_1_alg».proof.Proof.Region1
import proofs.«101406_j48722109005962_1_alg».proof.Proof.Region2
import proofs.«101406_j48722109005962_1_alg».proof.Proof.Region3
import proofs.«101406_j48722109005962_1_alg».proof.Proof.RefRead

noncomputable section

open scoped BigOperators

namespace Cert.KernelIdeal.RefBridge

open Cert.KernelIdeal
open Idealize.ShloMosaic Idealize.ShloMosaic.TcCoe Idealize.ShloMosaic.ValueIdx Idealize.SL.Sem
open Cert.ReferenceIdeal.ReadP

/-- The first product: the host contracts the same row of `x` with the same column of `w`. -/
theorem prod0_eq (x0 : (⟨S100000x128, .f32⟩ : BufTy).Contents (Elt Ideal)) (x2 : (⟨S128x64, .f32⟩ : BufTy).Contents (Elt Ideal)) :
    Region0.prod0 x0 x2 = val_main_v17 (F := Ideal) x0 x2 := by
  funext i
  rw [val_main_v17_apply]
  unfold Region0.prod0
  refine Finset.sum_congr rfl fun k _ => ?_
  have el : (ix2 (n0 := 100000) (n1 := 128) ⟨(i 0).val, idx2_lt0 i⟩ k) = lidx_main_v17 i k :=
    funext fun a => by match a with | ⟨0, _⟩ => rfl | ⟨1, _⟩ => rfl
  have er : (ix2 (n0 := 128) (n1 := 64) k ⟨(i 1).val, idx2_lt1 i⟩) = ridx_main_v17 i k :=
    funext fun a => by match a with | ⟨0, _⟩ => rfl | ⟨1, _⟩ => rfl
  rw [el, er]

/-- The second product, likewise, of whatever hidden table `h` the two programs share. -/
theorem prod2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) :
    Region2.prod2 (val_main_v49 (F := Ideal) x0 x1 x2 x3) x4 = val_main_v50 (F := Ideal) x0 x1 x2 x3 x4 := by
  funext i
  rw [val_main_v50_apply]
  unfold Region2.prod2
  refine Finset.sum_congr rfl fun k _ => ?_
  have el : (ix2 (n0 := 100000) (n1 := 64) ⟨(i 0).val, idx2_lt0 i⟩ k) = lidx_main_v50 i k :=
    funext fun a => by match a with | ⟨0, _⟩ => rfl | ⟨1, _⟩ => rfl
  have er : (ix2 (n0 := 64) (n1 := 32) k ⟨(i 1).val, idx2_lt1 i⟩) = ridx_main_v50 i k :=
    funext fun a => by match a with | ⟨0, _⟩ => rfl | ⟨1, _⟩ => rfl
  rw [el, er]

/-- The first bias region: entry (p, q) is max (agg (p, q) + b q, 0) in both programs. -/
theorem biasRelu1_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) :
    Region1.biasRelu1 (val_main_v45 (F := Ideal) x0 x1 x2) x3 = val_main_v49 (F := Ideal) x0 x1 x2 x3 := by
  funext i
  rw [val_main_v49_apply, val_main_v48_apply, val_main_v47_apply, val_main_v46_apply, val_main_call1_v0_apply,
    val_main_call1_cst_apply]
  unfold Region1.biasRelu1
  have e : (ix1 (n := 64) ⟨(i 1).val, idx2_lt1 i⟩) = idx_main_v46 (idx_main_v47 i) :=
    funext fun a => by match a with | ⟨0, _⟩ => rfl
  rw [e]

/-- The last region: entry (p, q) is agg (p, q) + b q in both programs. -/
theorem bias3_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal)) :
    Region3.bias3 (val_main_v78 (F := Ideal) x0 x1 x2 x3 x4) x5 = val_main_v81 (F := Ideal) x0 x1 x2 x3 x4 x5 := by
  funext i
  rw [val_main_v81_apply, val_main_v80_apply, val_main_v79_apply]
  unfold Region3.bias3
  have e : (ix1 (n := 32) ⟨(i 1).val, idx2_lt1 i⟩) = idx_main_v79 (idx_main_v80 i) :=
    funext fun a => by match a with | ⟨0, _⟩ => rfl
  rw [e]

end Cert.KernelIdeal.RefBridge

end
-- ==== Proof.KernelValue.lean ====
/-
  What the kernel's program leaves in its result array, as a function of the argument arrays: read backwards from the
  last boundary, the last region adds the second bias to the second aggregation of the second product of the hidden
  table; the hidden table is the first bias region's max (· , 0) of the first aggregation of the first product; and
  both aggregations read the sources, the targets and the nodes' factors that the first host stretch made from the
  edge list. Step by step this is the reference's chain of stages, applied to the same arguments.
-/
import proofs.«101406_j48722109005962_1_alg».proof.Proof.Boundary
import proofs.«101406_j48722109005962_1_alg».proof.Proof.HostChain
import proofs.«101406_j48722109005962_1_alg».proof.Proof.RefBridge

set_option maxRecDepth 16384

noncomputable section

namespace Cert.KernelIdeal.KernelValue

open Cert.KernelIdeal Cert.KernelIdeal.Gen
open Idealize.ShloMosaic Idealize.ShloMosaic.TcCoe Idealize.SL.Sem
open Cert.ReferenceIdeal.ReadP

variable (m : (ℓ : Loc nD τ sig) → Buf (Elt Ideal) ℓ) (ρ : Dev nD → PrngReg)

/-- The sources, as the first host stretch leaves them. -/
theorem sources (c : Dev nD) :
    W1 m ρ c (Proc.devRef .tc main_v3) = val_main_v3 (F := Ideal) (m ((c : Thread nD τ).loc main_arg1)) :=
  HostChain.sources_after (W0 m ρ c)

/-- The targets, as the first host stretch leaves them. -/
theorem targets (c : Dev nD) :
    W1 m ρ c (Proc.devRef .tc main_v6) = val_main_v6 (F := Ideal) (m ((c : Thread nD τ).loc main_arg1)) :=
  HostChain.targets_after (W0 m ρ c)

/-- The nodes' factors, as the first region finds them. -/
theorem factors (c : Dev nD) :
    W2 m ρ c (Proc.devRef .tc main_v16) = val_main_v16 (F := Ideal) (m ((c : Thread nD τ).loc main_arg1)) :=
  HostChain.factors_after (W0 m ρ c)

/-- After the first region: the product of the node features with the first layer's weights. -/
theorem table1 (c : Dev nD) :
    W3 m ρ c (Proc.devRef .tc main_v17)
      = val_main_v17 (F := Ideal) (m ((c : Thread nD τ).loc main_arg0)) (m ((c : Thread nD τ).loc main_arg2)) := by
  refine (show W3 m ρ c (Proc.devRef .tc main_v17) = (dat0 (V2 m ρ) c).arrAt 2 cfg0.N from W3_arr m ρ c 2).trans ?_
  rw [Region0.final0 (V2 m ρ) c,
    show V2 m ρ c main_arg0 = m ((c : Thread nD τ).loc main_arg0) from Boundary.W2_arg0 m ρ c,
    show V2 m ρ c main_arg2 = m ((c : Thread nD τ).loc main_arg2) from Boundary.W2_arg2 m ρ c]
  exact RefBridge.prod0_eq _ _

/-- After the first aggregation stretch. -/
theorem aggregate1 (c : Dev nD) :
    W4 m ρ c (Proc.devRef .tc main_v45)
      = val_main_v45 (F := Ideal) (m ((c : Thread nD τ).loc main_arg0)) (m ((c : Thread nD τ).loc main_arg1))
          (m ((c : Thread nD τ).loc main_arg2)) :=
  HostChain.aggregate1_after (W3 m ρ c) _ _ _ (table1 m ρ c)
    ((Boundary.W3_v16 m ρ c).trans (factors m ρ c))
    ((Boundary.W3_v3 m ρ c).trans (sources m ρ c))
    ((Boundary.W3_v6 m ρ c).trans (targets m ρ c))

/-- After the first bias region: the hidden table. -/
theorem hidden (c : Dev nD) :
    W5 m ρ c (Proc.devRef .tc main_v46)
      = val_main_v49 (F := Ideal) (m ((c : Thread nD τ).loc main_arg0)) (m ((c : Thread nD τ).loc main_arg1))
          (m ((c : Thread nD τ).loc main_arg2)) (m ((c : Thread nD τ).loc main_arg3)) := by
  refine (show W5 m ρ c (Proc.devRef .tc main_v46) = (dat1 (V4 m ρ) c).arrAt 2 cfg1.N from W5_arr m ρ c 2).trans ?_
  rw [Region1.final1 (V4 m ρ) c,
    show V4 m ρ c main_v45 = _ from aggregate1 m ρ c,
    show V4 m ρ c main_arg3 = m ((c : Thread nD τ).loc main_arg3) from Boundary.W4_arg3 m ρ c]
  exact RefBridge.biasRelu1_eq _ _ _ _

/-- After the second product region. -/
theorem table2 (c : Dev nD) :
    W6 m ρ c (Proc.devRef .tc main_v47)
      = val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (show W6 m ρ c (Proc.devRef .tc main_v47) = (dat2 (V5 m ρ) c).arrAt 2 cfg2.N from W6_arr m ρ c 2).trans ?_
  rw [Region2.final2 (V5 m ρ) c,
    show V5 m ρ c main_v46 = _ from hidden m ρ c,
    show V5 m ρ c main_arg4 = m ((c : Thread nD τ).loc main_arg4) from Boundary.W5_arg4 m ρ c]
  exact RefBridge.prod2_eq _ _ _ _ _

/-- After the second aggregation stretch. -/
theorem aggregate2 (c : Dev nD) :
    W7 m ρ c (Proc.devRef .tc main_v75)
      = val_main_v78 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  HostChain.aggregate2_after (W6 m ρ c) _ _ _ _ _ (table2 m ρ c)
    ((Boundary.W6_v16 m ρ c).trans (factors m ρ c))
    ((Boundary.W6_v3 m ρ c).trans (sources m ρ c))
    ((Boundary.W6_v6 m ρ c).trans (targets m ρ c))

/-- THE RESULT: the last boundary's contents at the result array are the reference's last stage of the arguments. -/
theorem result (c : Dev nD) :
    W8 m ρ c (Proc.devRef .tc main_v76)
      = val_main_v81 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (show W8 m ρ c (Proc.devRef .tc main_v76) = (dat3 (V7 m ρ) c).arrAt 2 cfg3.N from W8_arr m ρ c 2).trans ?_
  rw [Region3.final3 (V7 m ρ) c,
    show V7 m ρ c main_v75 = _ from aggregate2 m ρ c,
    show V7 m ρ c main_arg5 = m ((c : Thread nD τ).loc main_arg5) from Boundary.W7_arg5 m ρ c]
  exact RefBridge.bias3_eq _ _ _ _ _ _

end Cert.KernelIdeal.KernelValue

end
-- ==== Proof.lean ====
/-
  Two graph-convolution layers, the kernel's program against the reference: out = Â · relu(Â · (x W1) + b1) · W2 + b2
  with Â the edge list's adjacency with self-loops, normalised on both sides by deg^(-1/2).

  The kernel's program computes the two products and the two bias steps in four TensorCore regions, twenty row
  blocks each, and leaves the edge-indexed gather and scatter-add between them to host operations that are, one for
  one, the reference's. At the extended reals a region's result is one function of its whole input arrays: a block's
  product into a zero accumulator (the casts to bf16 being the identity there) is the host's product, entry (p, q)
  the sum over k of x (p, k) · w (k, q), and the bias regions are the host's broadcast, sum and maximum. So, boundary
  by boundary, the kernel's run ends with the result array at the reference's own chain of stages of the arguments,
  which is what the reference's run ends with; the arguments agree, hence the results are equal. No law beyond
  reading each operation entry by entry is used: neither side regroups a sum, and finiteness of the inputs is not needed.
  The frames are the generated ones (the reference's is its run with the result dropped); the idealisation rewrote
  nothing, so `preserves` is trivial.
-/
import proofs.«101406_j48722109005962_1_alg».proof.Defs
import proofs.«101406_j48722109005962_1_alg».proof.Proof.Gen.Kernel
import proofs.«101406_j48722109005962_1_alg».proof.Proof.Gen.Kernel.Frame
import proofs.«101406_j48722109005962_1_alg».proof.Proof.Gen.KernelIdeal
import proofs.«101406_j48722109005962_1_alg».proof.Proof.Gen.KernelIdeal.Frame
import proofs.«101406_j48722109005962_1_alg».proof.Proof.Gen.ReferenceIdeal
import proofs.«101406_j48722109005962_1_alg».proof.Proof.Gen.Pre_finite_inputs
import proofs.«101406_j48722109005962_1_alg».proof.Proof.KernelRun
import proofs.«101406_j48722109005962_1_alg».proof.Proof.KernelValue
import proofs.«101406_j48722109005962_1_alg».proof.Proof.RefRead
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both programs end with the result array at the reference's last stage of the (agreeing) arguments. -/
theorem algebraic : Cert.algebraic_KernelIdeal_ReferenceIdeal := by
  intro m ρ m' ρ' _ hagree
  refine ⟨fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v81_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
